-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : IVec S1600000 32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 4294867296#32
  let main_v24 : IVec S1600000 32 := broadcastInDim S1600000 ![] bcast_S_S1600000 main_c_8
  let main_v25 : IVec S1600000 1 := cmpi .sge main_arg2 main_v24
  let main_c_9 : IVec S_ 32 := constantI S_ 32 100000#32
  let main_v26 : IVec S1600000 32 := broadcastInDim S1600000 ![] bcast_S_S1600000 main_c_9
  let main_v27 : IVec S1600000 1 := cmpi .slt main_arg2 main_v26
  let main_v28 : IVec S1600000 1 := andi main_v25 main_v27
  let main_c_10 : IVec S_ 1 := constantI S_ 1 1#1
  let main_v29 : IVec S_ 1 := (fun x v => Host.reduce IntOp.andi x v reducesTo_S1600000_S_d0 h_S_) main_v28 main_c_10
  let main_v30 : IVec S_ 1 := andi main_v23 main_v29
  main_v30

def fn {F : FTy → Type} [FloatOps F] (main_arg0 : FVec F S100000x128 .f32) (main_arg1 : FVec F S100000x128 .f32) (main_arg2 : IVec S1600000 32) (main_arg3 : IVec S1600000 32) (main_arg4 : FVec F S1600000 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S5000x128 : Shape := ⟨2, ![5000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 40
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x128, .f32⟩
  | .hbm, ⟨6, _⟩ => ⟨S128, .f32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1, .i32⟩
  | .hbm, ⟨17, _⟩ => ⟨S_, .i32⟩
  | .hbm, ⟨18, _⟩ => ⟨S1600000x1, .i32⟩
  | .hbm, ⟨19, _⟩ => ⟨S1600000x1, .i1⟩
  | .hbm, ⟨20, _⟩ => ⟨S1x1, .i32⟩
  | .hbm, ⟨21, _⟩ => ⟨S1600000x1, .i32⟩
  | .hbm, ⟨22, _⟩ => ⟨S1600000x1, .i1⟩
  | .hbm, ⟨23, _⟩ => ⟨S1600000x1, .i1⟩
  | .hbm, ⟨24, _⟩ => ⟨S_, .i1⟩
  | .hbm, ⟨25, _⟩ => ⟨S1600000, .i1⟩
  | .hbm, ⟨26, _⟩ => ⟨S1600000x128, .f32⟩
  | .hbm, ⟨27, _⟩ => ⟨S1600000x128, .i1⟩
  | .hbm, ⟨28, _⟩ => ⟨S_, .f32⟩
  | .hbm, ⟨29, _⟩ => ⟨S1600000x128, .f32⟩
  | .hbm, ⟨30, _⟩ => ⟨S1600000x128, .f32⟩
  | .hbm, ⟨31, _⟩ => ⟨S1600000x1, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x128, .f32⟩
  | .hbm, ⟨6, _⟩ => ⟨S128, .f32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Support.lean ====
/-
  The first kernel region, read as a value at the exact instance. Each grid point t takes rows 5000·t … 5000·t + 4999
  of the node features and the whole weight matrix, and writes back their product on those rows (rounding the operands
  to a narrower format is the identity on exact values, and the accumulator starts at zero); the twenty blocks tile the
  100000 rows, so the output array ends holding  support[r, c] = Σ_k x[r, k] · w[k, c].
-/
import proofs.«406843_j42314017800849_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Support

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- Row of the index, column k: the left factor's place in a [rows, 128] array. -/
abbrev rowAt {n : Nat} (i : (⟨2, ![n, 128]⟩ : Shape).Idx) (k : Fin 128) : (⟨2, ![n, 128]⟩ : Shape).Idx := fun a => match a with
  | ⟨0, _⟩ => ⟨(i 0).val, (i 0).isLt⟩
  | ⟨1, _⟩ => ⟨k.val, k.isLt⟩
/-- Row k, column of the index: the right factor's place in the weight matrix. -/
abbrev colAt {n : Nat} (i : (⟨2, ![n, 128]⟩ : Shape).Idx) (k : Fin 128) : S128x128.Idx := fun a => match a with
  | ⟨0, _⟩ => ⟨k.val, k.isLt⟩
  | ⟨1, _⟩ => ⟨(i 1).val, (i 1).isLt⟩

/-- The matrix product, index by index, as a sum over the 128 contracted places. -/
def matProd (x : S100000x128.Idx → EReal) (w : S128x128.Idx → EReal) : S100000x128.Idx → EReal :=
  fun i => ∑ k : Fin 128, x (rowAt i k) * w (colAt i k)

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at an index of the block: the row of the feature block against the column of the weights. -/
theorem pay_at (x0 : Vec Ideal S5000x128 .f32) (x1 : Vec Ideal S128x128 .f32) (j : S5000x128.Idx) :
    k0_pay1 (F := Ideal) x0 x1 j = ∑ k : Fin 128, x0 (rowAt j k) * x1 (colAt j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_blk_0 _ _).trans hk
    | ⟨1, _⟩ => exact rhs_blk_1 _ _)
  show x0 (dot_S5000x128_S128x128_S5000x128_1_0_0_1_n_n.lhsIdx j ((ValueIdx.contrEquiv1 dot_S5000x128_S128x128_S5000x128_1_0_0_1_n_n 128 rfl rfl).symm k)) * x1 (dot_S5000x128_S128x128_S5000x128_1_0_0_1_n_n.rhsIdx j ((ValueIdx.contrEquiv1 dot_S5000x128_S128x128_S5000x128_1_0_0_1_n_n 128 rfl rfl).symm k)) = _
  rw [el, er]

/-- The printed index maps over the grid: the feature window and the output window move together down the rows, the
    weight window stays at the origin; the output's block row stays below twenty and its block column at 0. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 19 ∧ win0_2.index t (1 : Fin 2) = 0 :=
  (by decide +kernel : ∀ t : Fin grid0.N, _)

/-- Every one of the twenty row blocks is some point's. -/
theorem idx_onto : ∀ (q0 : Fin 20), ∃ t : Fin cfg0.N, win0_2.index t = ![q0.val, 0] :=
  (by decide +kernel : ∀ (q0 : Fin 20), ∃ t : Fin grid0.N, win0_2.index t = ![q0.val, 0])

/-- The node features and the weights as the region finds them, at their literal types. -/
abbrev xarr (c : Dev nD) : S100000x128.Idx → EReal := V c main_arg0
abbrev warr (c : Dev nD) : S128x128.Idx → EReal := V c main_arg5

/-- What point t writes back is block t of the product of the two arrays as the region finds them. -/
theorem flushed_eq (c : Dev nD) (t : Fin cfg0.N) :
    (dat0 V c).flushed 2 t = ((cfg0.win 2).blk t).view.read (Elt Ideal) (matProd (xarr V c) (warr V c)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := idx_facts t
  funext j
  refine (pay_at (iblk0 V c 0 t) (iblk0 V c 1 t) j).trans ?_
  show (∑ k : Fin 128, xarr V c (((cfg0.win 0).blk t).view.emb (rowAt j k)) * warr V c (((cfg0.win 1).blk t).view.emb (colAt j k)))
     = ∑ k : Fin 128, xarr V c (rowAt (((cfg0.win 2).blk t).view.emb j) k) * warr V c (colAt (((cfg0.win 2).blk t).view.emb j) k)
  refine Finset.sum_congr rfl fun k _ => ?_
  have h0 : ((cfg0.win 0).blk t).view.emb (rowAt j k) = rowAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (colAt j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The twenty blocks tile the array: row r lies in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the features and the weights as the region finds them. -/
theorem final (c : Dev nD) :
    (dat0 V c).arrAt 2 cfg0.N = matProd (xarr V c) (warr V c) :=
  (dat0 V c).arrAt_eq_of_cover 2 _ (fun t _ => flushed_eq V c t) cover

end Cert.KernelIdeal.Support

end
-- ==== Proof.Epilogue.lean ====
/-
  The second kernel region, read as a value. Each grid point t takes rows 5000·t … 5000·t + 4999 of the aggregated
  messages and of the residual input, and the one bias row, and writes back
      max ((agg + y) + bias, 0)
  on those rows; the twenty blocks tile the 100000 rows, so the output array ends holding that function of the three
  arrays as the region finds them, index by index.
-/
import proofs.«406843_j42314017800849_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Epilogue

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- The bias entry an index of a [rows, 128] array meets: row 0, the index's column. -/
abbrev biasAt {n : Nat} (i : (⟨2, ![n, 128]⟩ : Shape).Idx) : S1x128.Idx := fun a => match a with
  | ⟨0, _⟩ => ⟨0, Nat.one_pos⟩
  | ⟨1, _⟩ => ⟨(i 1).val, (i 1).isLt⟩

/-- Sum of the aggregate, the residual and the bias of the column, clamped below at zero. -/
def relu3 (a y : S100000x128.Idx → Elt F .f32) (b : S1x128.Idx → Elt F .f32) : S100000x128.Idx → Elt F .f32 :=
  fun i => FloatOps.maximumf (FloatOps.addf (FloatOps.addf (a i) (y i)) (b (biasAt i))) (FloatOps.ofBits .f32 0x00000000#32)

/-- The body's stored value at row p, column q of the block: the two blocks' entries there and the bias of column q. -/
theorem pay_apply (x0 x1 : Vec F S5000x128 .f32) (x2 : Vec F S1x128 .f32) (p : Fin 5000) (q : Fin 128) :
    k1_pay1 x0 x1 x2 (ix2 p q)
      = FloatOps.maximumf (FloatOps.addf (FloatOps.addf (x0 (ix2 p q)) (x1 (ix2 p q))) (x2 (ix2 (0 : Fin 1) q))) (FloatOps.ofBits .f32 0x00000000#32) := by
  unfold k1_pay1
  simp only [shapeCast_self]
  show FloatOps.maximumf (FloatOps.addf (FloatOps.addf (x0 (ix2 p q)) (x1 (ix2 p q))) (broadcastTo S5000x128 x2 broadcasts_S1x128_S5000x128 (ix2 p q))) _ = _
  rw [broadcastTo_1b_ab_apply]
  rfl

/-- The same at any index of the block. -/
theorem pay_at (x0 x1 : Vec F S5000x128 .f32) (x2 : Vec F S1x128 .f32) (j : S5000x128.Idx) :
    k1_pay1 x0 x1 x2 j
      = FloatOps.maximumf (FloatOps.addf (FloatOps.addf (x0 j) (x1 j)) (x2 (biasAt j))) (FloatOps.ofBits .f32 0x00000000#32) := by
  obtain ⟨p, q, rfl⟩ : ∃ (p : Fin 5000) (q : Fin 128), j = ix2 p q := ⟨j 0, j 1, eq_ix2 j⟩
  have hb : biasAt (ix2 p q) = ix2 (0 : Fin 1) q := funext fun a => by
    match a with
    | ⟨0, _⟩ => rfl
    | ⟨1, _⟩ => rfl
  rw [hb]
  exact pay_apply x0 x1 x2 p q

/-- The printed index maps over the grid: the aggregate's, the residual's and the output's windows move together down
    the rows; the bias window stays at the origin; the output's block row stays below twenty and its block column at 0. -/
theorem idx_facts : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

/-- Every one of the twenty row blocks is some point's. -/
theorem idx_onto : ∀ (q0 : Fin 20), ∃ t : Fin cfg1.N, win1_3.index t = ![q0.val, 0] :=
  (by decide +kernel : ∀ (q0 : Fin 20), ∃ t : Fin grid1.N, win1_3.index t = ![q0.val, 0])

/-- What point t writes back is block t of `relu3` of the three arrays as the region finds them. -/
theorem flushed_eq (c : Dev nD) (t : Fin cfg1.N) :
    (dat1 V c).flushed 3 t = ((cfg1.win 3).blk t).view.read (Elt F) (relu3 (V c main_v7) (V c main_arg1) (V c main_v8)) := by
  show (cfg1.win 3).cut (grid1.coords t) ((dat1 V c).after 3 t) = _
  rw [after1_3]
  unfold out1_3
  rw [View.canon_unit_zero origin2]
  simp only [View.ld_unit_zero (S := S5000x128) origin2, View.ld_unit_zero (S := S1x128) origin2]
  obtain ⟨e0, e1, e2, e3, e4, e5, e6, e7⟩ := idx_facts t
  funext j
  refine (pay_at (iblk1 V c 0 t) (iblk1 V c 1 t) (iblk1 V c 2 t) j).trans ?_
  show FloatOps.maximumf (FloatOps.addf (FloatOps.addf (V c main_v7 (((cfg1.win 0).blk t).view.emb j)) (V c main_arg1 (((cfg1.win 1).blk t).view.emb j))) (V c main_v8 (((cfg1.win 2).blk t).view.emb (biasAt j)))) _
     = FloatOps.maximumf (FloatOps.addf (FloatOps.addf (V c main_v7 (((cfg1.win 3).blk t).view.emb j)) (V c main_arg1 (((cfg1.win 3).blk t).view.emb j))) (V c main_v8 (biasAt (((cfg1.win 3).blk t).view.emb j)))) _
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb (biasAt j) = biasAt (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  rw [h0, h1, h2]

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v9).slice (win1_3.rect t)).set ↔ _
  rw [View.set_slice_whole, Rect.mem_set_unit]
  exact Iff.rfl

/-- The twenty blocks tile the array: row r lies in the block of point r / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region: `relu3` of the aggregate, the residual and the bias row as the region finds them. -/
theorem final (c : Dev nD) :
    (dat1 V c).arrAt 3 cfg1.N = relu3 (V c main_v7) (V c main_arg1) (V c main_v8) :=
  (dat1 V c).arrAt_eq_of_cover 3 _ (fun t _ => flushed_eq V c t) cover

end Cert.KernelIdeal.Epilogue

end
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.HostChain.lean ====
/-
  The host operations between the two kernel regions, read as values. Over any contents W of the buffers:
    · the gather stretch leaves, in the gathered rows' buffer, row wrap(src[e]) of the table where the wrapped index is
      in [0, 99999] and a fill value elsewhere (wrap: a negative index counts from the end);
    · the scatter stretch leaves, in the aggregate's buffer, the sum into row dst[e] of (gathered row e) · adj[e], and in
      the bias row's buffer the bias vector laid out as one row;
    · every other buffer the second region reads is untouched.
-/
import proofs.«406843_j42314017800849_1_alg».proof.Proof.Gen.KernelIdeal.Frame
import Idealize.ShloMosaic.Lib.StableHlo.Run
import proofs.«406843_j42314017800849_1_alg».proof.Proof.LibTypedRef
import Idealize.ShloMosaic.Lib.ValueIdx

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.StableHlo

variable {F : FTy → Type} [FloatOps F]

/-- A source index wrapped as array indexing wraps it: a negative one counts from the end of the 100000 rows. -/
def wrapSrc (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The wrapped indices as the gather's start-index column. -/
def startCol (src : IVec S1600000 32) : IVec S1600000x1 32 :=
  broadcastInDim S1600000x1 ![0] bcast_S1600000_S1600000x1_0 (wrapSrc src)

/-- Per edge: is the wrapped index in [0, 99999]? -/
def inRange (src : IVec S1600000 32) : IVec S1600000 1 :=
  Host.reduce IntOp.andi
    (andi (cmpi .sge (startCol src) (broadcastInDim S1600000x1 ![] bcast_S_S1600000x1 (constantI S_ 32 0#32)))
      (cmpi .sle (startCol src) (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The rows of the table at the wrapped indices. -/
def gatherRows (sup : FVec F S100000x128 .f32) (src : IVec S1600000 32) : FVec F S1600000x128 .f32 :=
  Host.gather gather_S100000x128_S1600000x1_S1600000x128_1_0_n_n_0_1_1128 sup (startCol src)

/-- The same with the fill value on the edges whose wrapped index is out of range. -/
def takeRows (sup : FVec F S100000x128 .f32) (src : IVec S1600000 32) : FVec F S1600000x128 .f32 :=
  select (broadcastInDim S1600000x128 ![0] bcast_S1600000_S1600000x128_0 (inRange src)) (gatherRows sup src)
    (broadcastInDim S1600000x128 ![] bcast_S_S1600000x128 (constant S_ .f32 0x7FC00000#32))

/-- Each gathered row scaled by its edge weight and summed into its destination row, from zero. -/
def scatterMsgs (rows : FVec F S1600000x128 .f32) (dst : IVec S1600000 32) (adj : FVec F S1600000 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf rows (broadcastInDim S1600000x128 ![0, 1] bcast_S1600000x1_S1600000x128_0_1 (broadcastInDim S1600000x1 ![0] bcast_S1600000_S1600000x1_0 adj)))

variable (W : Valuation τ sig (Elt F))

set_option maxHeartbeats 2000000 in
/-- The gather stretch's result. -/
theorem take_eq : StableHlo.after (hostOps1 (F := F)) W (Proc.devRef .tc main_v1)
    = takeRows (F := F) (W (Proc.devRef .tc main_v0)) (W (Proc.devRef .tc main_arg2)) := by
  after_results
  simp only [TRef.ofBuf_toBuf]
  -- at the two ends of the call's stretch the transports are along equations of a type with itself
  have hv0 : ∀ u : (⟨S100000x128, .f32⟩ : BufTy).Contents (Elt F), (TRef.of (T := ⟨S100000x128, .f32⟩) main_v0).ofBuf u = u := fun _ => rfl
  have hv2 : ∀ u : (⟨S1600000, .i32⟩ : BufTy).Contents (Elt F), (TRef.of (T := ⟨S1600000, .i32⟩) main_arg2).ofBuf u = u := fun _ => rfl
  have hv1 : ∀ u : (⟨S1600000x128, .f32⟩ : BufTy).Contents (Elt F), (TRef.of (T := ⟨S1600000x128, .f32⟩) main_v1).toBuf u = u := fun _ => rfl
  rw [hv1, hv0, hv2]
  unfold takeRows gatherRows inRange startCol wrapSrc
  rfl

set_option maxHeartbeats 1000000 in
/-- The gather stretch leaves the buffers the later operations read from the launch untouched. -/
theorem take_keeps : StableHlo.after (hostOps1 (F := F)) W (Proc.devRef .tc main_arg1) = W (Proc.devRef .tc main_arg1)
    ∧ StableHlo.after (hostOps1 (F := F)) W (Proc.devRef .tc main_arg3) = W (Proc.devRef .tc main_arg3)
    ∧ StableHlo.after (hostOps1 (F := F)) W (Proc.devRef .tc main_arg4) = W (Proc.devRef .tc main_arg4)
    ∧ StableHlo.after (hostOps1 (F := F)) W (Proc.devRef .tc main_arg6) = W (Proc.devRef .tc main_arg6) := by
  refine ⟨?_, ?_, ?_, ?_⟩ <;> (after_results)

set_option maxHeartbeats 1000000 in
/-- The scatter stretch's aggregate. -/
theorem agg_eq : StableHlo.after (hostOps1_1 (F := F)) W (Proc.devRef .tc main_v7)
    = scatterMsgs (F := F) (W (Proc.devRef .tc main_v1)) (W (Proc.devRef .tc main_arg3)) (W (Proc.devRef .tc main_arg4)) := by
  after_results
  rfl

set_option maxHeartbeats 1000000 in
/-- The scatter stretch's bias row. -/
theorem bias_eq : StableHlo.after (hostOps1_1 (F := F)) W (Proc.devRef .tc main_v8)
    = shapeCast S1x128 (W (Proc.devRef .tc main_arg6) : S128.Idx → Elt F .f32) shapeCasts_S128_S1x128 := by
  after_results
  rfl

set_option maxHeartbeats 1000000 in
/-- The scatter stretch leaves the residual input untouched. -/
theorem agg_keeps : StableHlo.after (hostOps1_1 (F := F)) W (Proc.devRef .tc main_arg1) = W (Proc.devRef .tc main_arg1) := by
  after_results

end Cert.KernelIdeal.HostChain

end
-- ==== Proof.IndexWrap.lean ====
/-
  Signed 32-bit index arithmetic. An index s with -100000 ≤ s < 100000, wrapped the way array indexing wraps a negative
  index (s + 100000 when s < 0, else s), lies in [0, 99999]: for s < 0 the sum s + 100000 does not overflow and lies in
  [0, 99999]; for s ≥ 0 it is s itself, which is below 100000.
-/
import Idealize.ShloMosaic.PureOps

namespace Cert.IndexWrap

open Idealize.ShloMosaic

theorem ofBool_eq_one (b : Bool) : BitVec.ofBool b = 1#1 ↔ b = true := by cases b <;> decide

/-- The signed comparisons of two words, read as comparisons of their signed values. -/
theorem slt_iff (a b : BitVec 32) : IntOp.cmpi .slt a b = 1#1 ↔ a.toInt < b.toInt := by
  unfold IntOp.cmpi; rw [ofBool_eq_one]; simp only [BitVec.slt, decide_eq_true_eq]
theorem sle_iff (a b : BitVec 32) : IntOp.cmpi .sle a b = 1#1 ↔ a.toInt ≤ b.toInt := by
  unfold IntOp.cmpi; rw [ofBool_eq_one]; simp only [BitVec.sle, decide_eq_true_eq]
theorem sge_iff (a b : BitVec 32) : IntOp.cmpi .sge a b = 1#1 ↔ b.toInt ≤ a.toInt := by
  unfold IntOp.cmpi; rw [ofBool_eq_one]; simp only [BitVec.sle, decide_eq_true_eq]

/-- The wrapped index: s + 100000 when s is negative, else s. -/
def wrap (s : BitVec 32) : BitVec 32 := Scalar.select (IntOp.cmpi .slt s 0#32) (IntOp.addi s 100000#32) s

/-- In range before the wrap, in [0, 99999] after it. -/
theorem wrap_in_range (s : BitVec 32)
    (hlo : IntOp.cmpi .sge s 4294867296#32 = 1#1) (hhi : IntOp.cmpi .slt s 100000#32 = 1#1) :
    IntOp.cmpi .sge (wrap s) 0#32 = 1#1 ∧ IntOp.cmpi .sle (wrap s) 99999#32 = 1#1 := by
  have c1 : (4294867296#32 : BitVec 32).toInt = -100000 := by decide
  have c2 : (100000#32 : BitVec 32).toInt = 100000 := by decide
  have c3 : (0#32 : BitVec 32).toInt = 0 := by decide
  have c4 : (99999#32 : BitVec 32).toInt = 99999 := by decide
  rw [sge_iff, c1] at hlo
  rw [slt_iff, c2] at hhi
  rw [sge_iff, sle_iff, c3, c4]
  by_cases hneg : s.toInt < 0
  · have hw : wrap s = s + 100000#32 := by
      unfold wrap Scalar.select
      rw [if_pos (show IntOp.cmpi .slt s 0#32 = 1 from (slt_iff s 0#32).2 (by rw [c3]; exact hneg))]
      rfl
    have hadd : (s + 100000#32).toInt = s.toInt + 100000 := by
      rw [BitVec.toInt_add, c2, Int.bmod_eq_of_le (by push_cast; omega) (by push_cast; omega)]
    rw [hw, hadd]
    omega
  · have hw : wrap s = s := by
      unfold wrap Scalar.select
      rw [if_neg (show ¬ IntOp.cmpi .slt s 0#32 = 1 from fun h => hneg (by have := (slt_iff s 0#32).1 h; rw [c3] at this; exact this))]
    rw [hw]
    omega

end Cert.IndexWrap
-- ==== Proof.LibReduceAnd.lean ====
/-
  An all-reduce by "and" over ones is one.

  The library reads a 1 result back (every operand bit that reduces into it was 1). This is the other direction:
  when the initial bit is 1 and every operand bit that reduces into result index j is 1, the result at j is 1.
  A host reduce is a left fold from the initial value over the operand positions that reduce into j, so the
  statement is the fold's.
-/
import Idealize.ShloMosaic.Lib.ReduceAll

namespace Idealize.ShloMosaic

namespace IntOp

/-- A left fold by "and" from 1 over bits that are all 1 is 1. -/
theorem foldl_andi_of_forall {ι : Type} (f : ι → BitVec 1) :
    ∀ (l : List ι) (init : BitVec 1), init = 1#1 → (∀ n ∈ l, f n = 1#1) → l.foldl (fun r n => andi r (f n)) init = 1#1
  | [], _, h, _ => h
  | a :: l, _, h, hl =>
    foldl_andi_of_forall f l _ (andi_eq_one.2 ⟨h, hl a List.mem_cons_self⟩) (fun n hn => hl n (List.mem_cons_of_mem _ hn))

end IntOp

namespace Host

variable {s t u : Shape} {axes : List (Fin s.rank)}

/-- A reduce by "and" from the bit 1 is 1 at j when every operand bit that reduces into j is 1. -/
theorem reduce_andi_of_forall (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  unfold Host.reduce
  refine IntOp.foldl_andi_of_forall (fun n => x (s.rowMajor.symm n)) _ _ hinit (fun n hn => hx _ ?_)
  exact of_decide_eq_true (List.mem_filter.1 hn).2

end Host

end Idealize.ShloMosaic
-- ==== Proof.TakeInRange.lean ====
/-
  With every source index in [-100000, 100000) the wrapped index of every edge lies in [0, 99999], so the per-edge
  range test is 1 everywhere, the fill value is never selected, and the gathered rows are exactly the table's rows at the
  wrapped indices.
-/
import proofs.«406843_j42314017800849_1_alg».proof.Proof.HostChain
import proofs.«406843_j42314017800849_1_alg».proof.Proof.IndexWrap
import proofs.«406843_j42314017800849_1_alg».proof.Proof.LibReduceAnd

set_option maxRecDepth 16384

noncomputable section

namespace Cert.KernelIdeal.TakeInRange

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.KernelIdeal.HostChain

variable {F : FTy → Type} [FloatOps F]

/-- The range test holds on every edge. -/
theorem inRange_eq_one (src : IVec S1600000 32)
    (hsrc : ∀ e, IntOp.cmpi .sge (src e) 4294867296#32 = 1#1 ∧ IntOp.cmpi .slt (src e) 100000#32 = 1#1) (e : S1600000.Idx) :
    inRange src e = 1#1 := by
  unfold inRange
  refine Host.reduce_andi_of_forall _ _ _ _ e rfl (fun i _ => ?_)
  obtain ⟨e', he'⟩ : ∃ e', startCol src i = Cert.IndexWrap.wrap (src e') := ⟨_, rfl⟩
  show IntOp.andi (IntOp.cmpi .sge (startCol src i) 0#32) (IntOp.cmpi .sle (startCol src i) 99999#32) = 1#1
  rw [he']
  exact IntOp.andi_eq_one.2 (Cert.IndexWrap.wrap_in_range (src e') (hsrc e').1 (hsrc e').2)

/-- The take is the plain gather. -/
theorem takeRows_eq (sup : FVec F S100000x128 .f32) (src : IVec S1600000 32)
    (hsrc : ∀ e, IntOp.cmpi .sge (src e) 4294867296#32 = 1#1 ∧ IntOp.cmpi .slt (src e) 100000#32 = 1#1) :
    takeRows sup src = gatherRows sup src := by
  funext j
  unfold takeRows
  have hb : broadcastInDim S1600000x128 ![0] bcast_S1600000_S1600000x128_0 (inRange src) j = 1#1 := inRange_eq_one src hsrc _
  show Scalar.select (broadcastInDim S1600000x128 ![0] bcast_S1600000_S1600000x128_0 (inRange src) j) (gatherRows sup src j) _ = _
  rw [hb]
  rfl

end Cert.KernelIdeal.TakeInRange

end
-- ==== Proof.KernelValue.lean ====
/-
  The kernel program's result as ONE function of its seven argument arrays, at the exact instance and with every source
  index in range:
      out = max ((agg + y) + bias, 0),   agg = Σ over edges e into the row of (x·w)[wrap src[e], ·] · adj[e],
  where x·w is the matrix product the first region leaves, the gather/scale/scatter-add is the host's, and the last
  line is the second region's.  Each buffer the second region reads is traced back through the host operations and the
  first region to the launch memory.
-/
import proofs.«406843_j42314017800849_1_alg».proof.Proof.KernelRun
import proofs.«406843_j42314017800849_1_alg».proof.Proof.Support
import proofs.«406843_j42314017800849_1_alg».proof.Proof.Epilogue
import proofs.«406843_j42314017800849_1_alg».proof.Proof.HostChain
import proofs.«406843_j42314017800849_1_alg».proof.Proof.TakeInRange

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.StableHlo
open Cert.KernelIdeal.HostChain

variable (m : (ℓ : Loc nD τ sig) → Buf (Elt Ideal) ℓ) (ρ : Dev nD → PrngReg)

/-- The aggregate: rows of the product gathered at the wrapped sources, scaled, summed into their destinations. -/
def aggFn (sup : FVec Ideal S100000x128 .f32) (src dst : IVec S1600000 32) (adj : FVec Ideal S1600000 .f32) : FVec Ideal S100000x128 .f32 :=
  scatterMsgs (F := Ideal) (gatherRows (F := Ideal) sup src) dst adj

/-- The kernel's result as a function of the argument arrays. -/
def kernelFn (x y : FVec Ideal S100000x128 .f32) (src dst : IVec S1600000 32) (adj : FVec Ideal S1600000 .f32)
    (w : FVec Ideal S128x128 .f32) (bias : FVec Ideal S128 .f32) : FVec Ideal S100000x128 .f32 :=
  Epilogue.relu3 (F := Ideal) (aggFn (Support.matProd x w) src dst adj) y (shapeCast S1x128 bias shapeCasts_S128_S1x128)

/-- The first region's output array, in terms of the launch memory. -/
theorem support_eq (c : Dev nD) :
    W1 m ρ c (Proc.devRef .tc main_v0) = Support.matProd (m ((c : Thread nD τ).loc main_arg0)) (m ((c : Thread nD τ).loc main_arg5)) :=
  (W1_arr m ρ c 2).trans (Support.final (V0 m ρ) c)

/-- What the gather stretch leaves in the gathered rows' buffer. -/
theorem rows_eq (c : Dev nD)
    (hsrc : ∀ e, IntOp.cmpi .sge ((m ((c : Thread nD τ).loc main_arg2)) e) 4294867296#32 = 1#1 ∧ IntOp.cmpi .slt ((m ((c : Thread nD τ).loc main_arg2)) e) 100000#32 = 1#1) :
    W2 m ρ c (Proc.devRef .tc main_v1)
      = gatherRows (F := Ideal) (Support.matProd (m ((c : Thread nD τ).loc main_arg0)) (m ((c : Thread nD τ).loc main_arg5))) (m ((c : Thread nD τ).loc main_arg2)) := by
  have e1 : W2 m ρ c (Proc.devRef .tc main_v1)
      = takeRows (F := Ideal) (W1 m ρ c (Proc.devRef .tc main_v0)) (W1 m ρ c (Proc.devRef .tc main_arg2)) := take_eq (W1 m ρ c)
  have e2 : W1 m ρ c (Proc.devRef .tc main_arg2) = (m ((c : Thread nD τ).loc main_arg2)) := W1_of_ne m ρ c main_arg2 (by decide)
  rw [e1, support_eq, e2]
  exact TakeInRange.takeRows_eq _ _ hsrc

/-- The aggregate's buffer at the second region's entry. -/
theorem agg_at_entry (c : Dev nD)
    (hsrc : ∀ e, IntOp.cmpi .sge ((m ((c : Thread nD τ).loc main_arg2)) e) 4294867296#32 = 1#1 ∧ IntOp.cmpi .slt ((m ((c : Thread nD τ).loc main_arg2)) e) 100000#32 = 1#1) :
    V3 m ρ c main_v7 = aggFn (Support.matProd (m ((c : Thread nD τ).loc main_arg0)) (m ((c : Thread nD τ).loc main_arg5))) (m ((c : Thread nD τ).loc main_arg2)) (m ((c : Thread nD τ).loc main_arg3)) (m ((c : Thread nD τ).loc main_arg4)) := by
  have e0 : V3 m ρ c main_v7 = scatterMsgs (F := Ideal) (W2 m ρ c (Proc.devRef .tc main_v1)) (W2 m ρ c (Proc.devRef .tc main_arg3)) (W2 m ρ c (Proc.devRef .tc main_arg4)) :=
    agg_eq (W2 m ρ c)
  have e3 : W2 m ρ c (Proc.devRef .tc main_arg3) = (m ((c : Thread nD τ).loc main_arg3)) :=
    ((take_keeps (W1 m ρ c)).2.1).trans (W1_of_ne m ρ c main_arg3 (by decide))
  have e4 : W2 m ρ c (Proc.devRef .tc main_arg4) = (m ((c : Thread nD τ).loc main_arg4)) :=
    ((take_keeps (W1 m ρ c)).2.2.1).trans (W1_of_ne m ρ c main_arg4 (by decide))
  rw [e0, rows_eq m ρ c hsrc, e3, e4]
  rfl

/-- The residual input's buffer at the second region's entry. -/
theorem resid_at_entry (c : Dev nD) : V3 m ρ c main_arg1 = (m ((c : Thread nD τ).loc main_arg1)) :=
  (agg_keeps (W2 m ρ c)).trans (((take_keeps (W1 m ρ c)).1).trans (W1_of_ne m ρ c main_arg1 (by decide)))

/-- The bias row's buffer at the second region's entry. -/
theorem bias_at_entry (c : Dev nD) : V3 m ρ c main_v8 = shapeCast S1x128 (m ((c : Thread nD τ).loc main_arg6)) shapeCasts_S128_S1x128 := by
  have e0 : V3 m ρ c main_v8 = shapeCast S1x128 (W2 m ρ c (Proc.devRef .tc main_arg6) : S128.Idx → Elt Ideal .f32) shapeCasts_S128_S1x128 :=
    bias_eq (W2 m ρ c)
  have e6 : W2 m ρ c (Proc.devRef .tc main_arg6) = (m ((c : Thread nD τ).loc main_arg6)) :=
    ((take_keeps (W1 m ρ c)).2.2.2).trans (W1_of_ne m ρ c main_arg6 (by decide))
  rw [e0, e6]

/-- THE RESULT ARRAY after the run is `kernelFn` of the argument arrays. -/
theorem result_eq (c : Dev nD)
    (hsrc : ∀ e, IntOp.cmpi .sge ((m ((c : Thread nD τ).loc main_arg2)) e) 4294867296#32 = 1#1 ∧ IntOp.cmpi .slt ((m ((c : Thread nD τ).loc main_arg2)) e) 100000#32 = 1#1) :
    W4 m ρ c (Proc.devRef .tc main_v9)
      = kernelFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [GenRun.W4_result, Epilogue.final, agg_at_entry m ρ c hsrc, resid_at_entry, bias_at_entry]
  rfl

end Cert.KernelIdeal.KernelValue

end
-- ==== Proof.PreRange.lean ====
/-
  The precondition, read back at the source indices: where the stated predicate holds, every entry s of the source-index
  array satisfies -100000 ≤ s < 100000 as a signed word. (The predicate is a conjunction of all-reductions by "and";
  its last conjunct is the all-reduction of (s ≥ -100000) ∧ (s < 100000) over the edges.)
-/
import proofs.«406843_j42314017800849_1_alg».proof.Pre_finite_inputs
import Idealize.ShloMosaic.Lib.ReduceAll
import Idealize.ShloMosaic.Lib.ValueIdx

noncomputable section

namespace Cert.PreRange

open Idealize.ShloMosaic Idealize.ShloMosaic.ValueIdx Cert.Pre_finite_inputs

variable {F : FTy → Type} [FloatOps F] [Cert.Pre_finite_inputs.Facts]

instance : Subsingleton S_.Idx := ⟨fun a b => funext fun d => d.elim0⟩

/-- Every source index is in [-100000, 100000) when the predicate is all ones. -/
theorem src_in_range (a0 a1 : FVec F S100000x128 .f32) (a2 a3 : IVec S1600000 32) (a4 : FVec F S1600000 .f32)
    (a5 : FVec F S128x128 .f32) (a6 : FVec F S128 .f32)
    (h : fn (F := F) a0 a1 a2 a3 a4 a5 a6 = fun _ => 1#1) (e : S1600000.Idx) :
    IntOp.cmpi .sge (a2 e) 4294867296#32 = 1#1 ∧ IntOp.cmpi .slt (a2 e) 100000#32 = 1#1 := by
  have h0 := congrFun h ix0
  unfold fn fn_part1 at h0
  dsimp only at h0
  have h1 := (IntOp.andi_eq_one.1 h0).2
  have h2 := Host.reduce_andi_all _ _ _ _ ix0 h1 e
  exact IntOp.andi_eq_one.1 h2

end Cert.PreRange

end
-- ==== Proof.Bridge.lean ====
/-
  The reference's result and the kernel's are one function of the seven arrays. Index by index the reference is
      max (((agg + bias) + y), 0)     and the kernel     max (((agg + y) + bias), 0),
  with one and the same aggregate: the reference's matrix product is the sum over the contracted index that the first
  region leaves, its gather reads the same rows at the same wrapped indices, and the scaling and the scatter-add are the
  same operations on both sides.  Addition of extended reals is commutative and associative, so the two sums agree with
  no finiteness needed.
-/
import proofs.«406843_j42314017800849_1_alg».proof.Proof.KernelValue
import proofs.«406843_j42314017800849_1_alg».proof.Proof.Gen.ReferenceIdeal.Read
import Idealize.ShloMosaic.Lib.Pipeline.Value

set_option maxRecDepth 16384

noncomputable section

namespace Cert.Bridge

open Idealize.ShloMosaic Idealize.ShloMosaic.ValueIdx
open Cert.KernelIdeal.KernelValue Cert.KernelIdeal.HostChain

/-- The reference's matrix product is the sum the first kernel region leaves. -/
theorem product_eq (x : FVec Ideal Cert.ReferenceIdeal.S100000x128 .f32) (w : FVec Ideal Cert.ReferenceIdeal.S128x128 .f32) :
    Cert.ReferenceIdeal.Read.val_main_v0 (F := Ideal) x w = Cert.KernelIdeal.Support.matProd x w := by
  funext i
  rw [Cert.ReferenceIdeal.Read.val_main_v0_apply]
  unfold Cert.KernelIdeal.Support.matProd
  refine Finset.sum_congr rfl fun k _ => ?_
  have hl : Cert.ReferenceIdeal.Read.lidx_main_v0 i k = Cert.KernelIdeal.Support.rowAt i k := funext fun a => by
    match a with
    | ⟨0, _⟩ => rfl
    | ⟨1, _⟩ => rfl
  have hr : Cert.ReferenceIdeal.Read.ridx_main_v0 i k = Cert.KernelIdeal.Support.colAt i k := funext fun a => by
    match a with
    | ⟨0, _⟩ => rfl
    | ⟨1, _⟩ => rfl
  rw [hl, hr]

/-- The reference's aggregate is the kernel's. -/
theorem agg_eq (x : FVec Ideal Cert.ReferenceIdeal.S100000x128 .f32) (src dst : IVec Cert.ReferenceIdeal.S1600000 32)
    (adj : FVec Ideal Cert.ReferenceIdeal.S1600000 .f32) (w : FVec Ideal Cert.ReferenceIdeal.S128x128 .f32) :
    Cert.ReferenceIdeal.Read.val_main_v13 (F := Ideal) x src dst adj w
      = aggFn (Cert.KernelIdeal.Support.matProd x w) src dst adj := by
  unfold Cert.ReferenceIdeal.Read.val_main_v13 Cert.ReferenceIdeal.Read.val_main_v10 Cert.ReferenceIdeal.Read.val_main_v7
  rw [product_eq]
  rfl

/-- The bias row, laid out as one row, read at the column of an index: the bias entry of that column. -/
theorem bias_at (bias : FVec Ideal Cert.KernelIdeal.S128 .f32) (i : Cert.KernelIdeal.S100000x128.Idx) :
    shapeCast Cert.KernelIdeal.S1x128 bias Cert.KernelIdeal.Facts₀.shapeCasts_S128_S1x128 (Cert.KernelIdeal.Epilogue.biasAt i)
      = bias (Cert.ReferenceIdeal.Read.idx_main_v14 (Cert.ReferenceIdeal.Read.idx_main_v15 i)) := by
  refine shapeCast_apply bias _ _ _ ?_
  simp only [Shape.rowMajor_val_two, Shape.rowMajor_val_one]
  show (i 1).val = 0 * 128 + (i 1).val
  omega

/-- THE TWO RESULTS ARE ONE FUNCTION. -/
theorem result_eq (x y : FVec Ideal Cert.ReferenceIdeal.S100000x128 .f32) (src dst : IVec Cert.ReferenceIdeal.S1600000 32)
    (adj : FVec Ideal Cert.ReferenceIdeal.S1600000 .f32) (w : FVec Ideal Cert.ReferenceIdeal.S128x128 .f32)
    (bias : FVec Ideal Cert.ReferenceIdeal.S128 .f32) :
    Cert.ReferenceIdeal.Read.val_main_v18 (F := Ideal) x y src dst adj w bias = kernelFn x y src dst adj w bias := by
  funext i
  rw [Cert.ReferenceIdeal.Read.val_main_v18_apply, Cert.ReferenceIdeal.Read.val_main_v17_apply,
    Cert.ReferenceIdeal.Read.val_main_v16_apply, Cert.ReferenceIdeal.Read.val_main_v15_apply,
    Cert.ReferenceIdeal.Read.val_main_v14_apply, Cert.ReferenceIdeal.Read.val_main_call0_v0_apply,
    Cert.ReferenceIdeal.Read.val_main_call0_cst_apply, agg_eq]
  unfold kernelFn Cert.KernelIdeal.Epilogue.relu3
  rw [bias_at]
  simp only [Ideal.addf_def, Ideal.maximumf_def]
  rw [add_right_comm]

end Cert.Bridge

end
-- ==== Proof.lean ====
/-
  A residual graph-convolution layer: out = max (A·(x·w) + bias + y, 0), the sparse product A·(x·w) written edge by edge
  (row src[e] of x·w, scaled by adj[e], summed into row dst[e]).

  The kernel program computes x·w in a first region (row blocks of 5000, the whole weight matrix), gathers, scales and
  scatter-adds on the host, and adds the residual and the bias and clamps at zero in a second region (row blocks of 5000).
  The reference does the same with host operations only.  Over the extended reals the two agree index by index:
  the two matrix products are the same sum over the contracted index; with every source index in [-100000, 100000) the
  kernel's gather never meets its fill value and reads the rows the reference reads; the scaling and the scatter-add are
  the same operations; and (agg + y) + bias = (agg + bias) + y because addition of extended reals is commutative and
  associative.  No finiteness of the inputs is used.

  The frames are the generated ones (the reference's is its run with the result dropped); the idealization rewrote
  nothing, so `preserves` is trivial.
-/
import proofs.«406843_j42314017800849_1_alg».proof.Defs
import proofs.«406843_j42314017800849_1_alg».proof.Proof.Gen.Kernel
import proofs.«406843_j42314017800849_1_alg».proof.Proof.Gen.Kernel.Frame
import proofs.«406843_j42314017800849_1_alg».proof.Proof.Gen.KernelIdeal
import proofs.«406843_j42314017800849_1_alg».proof.Proof.Gen.KernelIdeal.Frame
import proofs.«406843_j42314017800849_1_alg».proof.Proof.Gen.ReferenceIdeal
import proofs.«406843_j42314017800849_1_alg».proof.Proof.Gen.ReferenceIdeal.Run
import proofs.«406843_j42314017800849_1_alg».proof.Proof.Gen.ReferenceIdeal.Read
import proofs.«406843_j42314017800849_1_alg».proof.Proof.Gen.Pre_finite_inputs
import proofs.«406843_j42314017800849_1_alg».proof.Proof.KernelRun
import proofs.«406843_j42314017800849_1_alg».proof.Proof.KernelValue
import proofs.«406843_j42314017800849_1_alg».proof.Proof.PreRange
import proofs.«406843_j42314017800849_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end, with the result arrays equal to one function of the argument arrays. -/
theorem algebraic : Cert.algebraic_KernelIdeal_ReferenceIdeal := by
  intro m ρ m' ρ' hpre hagree
  have hsrc : ∀ (c : Dev Cert.KernelIdeal.nD) e, IntOp.cmpi .sge ((m ((c.tc : Thread Cert.KernelIdeal.nD Cert.KernelIdeal.τ).loc Cert.KernelIdeal.main_arg2)) e) 4294867296#32 = 1#1
      ∧ IntOp.cmpi .slt ((m ((c.tc : Thread Cert.KernelIdeal.nD Cert.KernelIdeal.τ).loc Cert.KernelIdeal.main_arg2)) e) 100000#32 = 1#1 :=
    fun c e => Cert.PreRange.src_in_range _ _ _ _ _ _ _ (hpre c) e
  refine ⟨fun c => Cert.KernelIdeal.KernelValue.kernelFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.result_eq m ρ c (hsrc c)), (h c).2⟩)
      (Cert.KernelIdeal.GenRun.run_main m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2]
    exact (Cert.ReferenceIdeal.Read.val_main_v18_eq _ _ _ _ _ _ _).trans (Cert.Bridge.result_eq _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
